-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 25
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S50000x128, .f32⟩
  | .hbm, ⟨9, _⟩ => ⟨S50000x128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128, .f32⟩
  | .hbm, ⟨24, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S50000x128, .f32⟩
  | .hbm, ⟨8, _⟩ => ⟨S128x128, .f32⟩
  | .hbm, ⟨9, _⟩ => ⟨S50000x128, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Payloads.lean ====
/-
  The two kernel bodies read at one index, over the extended reals.

  The first body multiplies a block of 5000 rows of the node features by each of the two transposed weight matrices:
  entry (r, c) of either product is the sum over k of x[r, k] · w[k, c] (a matrix product into a zero accumulator is just
  that sum, and narrowing the operands to a shorter float format changes nothing over the extended reals).
  The second body adds the self term, the aggregated neighbour term and the bias row, and clamps below at zero:
  entry (r, c) is max (h[r, c] + n[r, c] + b[0, c]) 0.
-/
import proofs.«122483_j68367289418123_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.SL.Sem

/-! ## Which entries of the two operands meet in entry `i` of a block product -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of `i`, `k`) of the left block. -/
abbrev rowAt (i : S5000x128.Idx) (k : Fin 128) : S5000x128.Idx := fun a => match a with
  | ⟨0, _⟩ => ⟨(i 0).val, (i 0).isLt⟩
  | ⟨1, _⟩ => ⟨k.val, k.isLt⟩
/-- Entry (`k`, column of `i`) of the right matrix. -/
abbrev colAt (i : S5000x128.Idx) (k : Fin 128) : S128x128.Idx := fun a => match a with
  | ⟨0, _⟩ => ⟨k.val, k.isLt⟩
  | ⟨1, _⟩ => ⟨(i 1).val, (i 1).isLt⟩

/-- A block product into the zero accumulator, at an entry: the sum over the 128 contracted positions. -/
theorem blockProduct_apply (x : FVec Ideal S5000x128 .bf16) (w : FVec Ideal S128x128 .bf16) (i : S5000x128.Idx) :
    matmul dot_S5000x128_S128x128_S5000x128_1_0_0_1_n_n none x w (constant S5000x128 .f32 0x00000000#32) i
      = ∑ k : Fin 128, x (rowAt i k) * w (colAt i k) := by
  show FloatOps.matmul dot_S5000x128_S128x128_S5000x128_1_0_0_1_n_n none x w (constant S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowAt i k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx i ((ValueIdx.contrEquiv1 dot_S5000x128_S128x128_S5000x128_1_0_0_1_n_n 128 rfl rfl).symm k) = colAt i k := funext fun a => Fin.ext (by
    match a with
    | ⟨0, _⟩ => exact (rhs_axis0 _ _).trans hk
    | ⟨1, _⟩ => exact rhs_axis1 _ _)
  rw [el, er]

/-- The self-term payload at an entry. -/
theorem selfPayload_apply (x : Vec Ideal S5000x128 .f32) (w : Vec Ideal S128x128 .f32) (i : S5000x128.Idx) :
    k0_pay2 (F := Ideal) x w i = ∑ k : Fin 128, x (rowAt i k) * w (colAt i k) := by
  unfold k0_pay2 k0_pay1
  rw [shapeCast_self]
  exact (blockProduct_apply _ _ i).trans rfl

/-- The neighbour-transform payload at an entry. -/
theorem neighPayload_apply (x : Vec Ideal S5000x128 .f32) (w : Vec Ideal S128x128 .f32) (i : S5000x128.Idx) :
    k0_pay3 (F := Ideal) x w i = ∑ k : Fin 128, x (rowAt i k) * w (colAt i k) := by
  unfold k0_pay3 k0_pay1
  rw [shapeCast_self]
  exact (blockProduct_apply _ _ i).trans rfl

/-! ## The second body -/

/-- The bias row's entry under column of `i`. -/
abbrev biasAt (i : S5000x128.Idx) : S1x128.Idx := fun a => match a with
  | ⟨0, _⟩ => ⟨0, Nat.one_pos⟩
  | ⟨1, _⟩ => ⟨(i 1).val, (i 1).isLt⟩

/-- The add-bias-clamp payload at an entry. -/
theorem reluPayload_apply (b : Vec Ideal S1x128 .f32) (h n : Vec Ideal S5000x128 .f32) (i : S5000x128.Idx) :
    k1_pay1 (F := Ideal) b h n i = max (h i + n i + b (biasAt i)) (Ideal.ofBits .f32 0x00000000#32) := by
  unfold k1_pay1
  simp only [shapeCast_self]
  show max (h i + n i + broadcastTo S5000x128 b broadcasts_S1x128_S5000x128 i) (Ideal.ofBits .f32 0x00000000#32) = _
  rw [broadcastTo_apply b broadcasts_S1x128_S5000x128 i (biasAt i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]

end Cert.KernelIdeal.Body

end
-- ==== Proof.Region0.lean ====
/-
  The first region's two outputs as whole arrays.

  The region walks the 50000 rows of the node features in ten blocks of 5000 rows; at block t it writes rows
  5000·t … 5000·t + 4999 of both outputs, each the product of that block of rows with a whole 128×128 matrix.
  So entry (r, c) of an output is the sum over k of X[r, k] · Wt[k, c], whatever block r falls in (block r / 5000),
  and the ten blocks cover every row: each output ends as the whole matrix product `product X Wt`.
-/
import proofs.«122483_j68367289418123_1_alg».proof.Proof.Gen.KernelIdeal.Frame
import proofs.«122483_j68367289418123_1_alg».proof.Proof.Payloads

set_option maxRecDepth 16384

noncomputable section

namespace Cert.KernelIdeal.Products

open Cert.KernelIdeal Cert.KernelIdeal.Gen Cert.KernelIdeal.Body Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- Entry (row of `i`, `k`) of the feature array. -/
abbrev rowOf (i : S50000x128.Idx) (k : Fin 128) : S50000x128.Idx := fun a => match a with
  | ⟨0, _⟩ => ⟨(i 0).val, (i 0).isLt⟩
  | ⟨1, _⟩ => ⟨k.val, k.isLt⟩
/-- Entry (`k`, column of `i`) of the transposed weight matrix. -/
abbrev colOf (i : S50000x128.Idx) (k : Fin 128) : S128x128.Idx := fun a => match a with
  | ⟨0, _⟩ => ⟨k.val, k.isLt⟩
  | ⟨1, _⟩ => ⟨(i 1).val, (i 1).isLt⟩

/-- The whole matrix product: entry `i` is the sum over the 128 contracted positions. -/
def product (x : S50000x128.Idx → EReal) (w : S128x128.Idx → EReal) : S50000x128.Idx → EReal :=
  fun i => ∑ k : Fin 128, x (rowOf i k) * w (colOf i k)

/-- An entry of a block product is the entry of the whole product it sits at, once the block's rows are the array's rows
    at that place and the matrix is the whole matrix. -/
theorem selfEntry_of_block (X : S50000x128.Idx → EReal) (Wt : S128x128.Idx → EReal) (x : Vec Ideal S5000x128 .f32)
    (w : Vec Ideal S128x128 .f32) (j : S5000x128.Idx) (i : S50000x128.Idx)
    (hx : ∀ k : Fin 128, x (rowAt j k) = X (rowOf i k)) (hw : ∀ k : Fin 128, w (colAt j k) = Wt (colOf i k)) :
    k0_pay2 (F := Ideal) x w j = product X Wt i := by
  rw [selfPayload_apply]
  exact Finset.sum_congr rfl fun k _ => by rw [hx k, hw k]
theorem neighEntry_of_block (X : S50000x128.Idx → EReal) (Wt : S128x128.Idx → EReal) (x : Vec Ideal S5000x128 .f32)
    (w : Vec Ideal S128x128 .f32) (j : S5000x128.Idx) (i : S50000x128.Idx)
    (hx : ∀ k : Fin 128, x (rowAt j k) = X (rowOf i k)) (hw : ∀ k : Fin 128, w (colAt j k) = Wt (colOf i k)) :
    k0_pay3 (F := Ideal) x w j = product X Wt i := by
  rw [neighPayload_apply]
  exact Finset.sum_congr rfl fun k _ => by rw [hx k, hw k]

/-- The index maps over the ten grid points: the feature window and both output windows sit at row block t, column block 0;
    the two matrices at block (0, 0). -/
theorem blockIndices : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0
    ∧ win0_4.index t (0 : Fin 2) = win0_3.index t (0 : Fin 2) ∧ win0_4.index t (1 : Fin 2) = 0 :=
  (by decide +kernel : ∀ t : Fin grid0.N, _)

/-- Every row block is some point's. -/
theorem rowBlock_onto : ∀ q : Fin 10, ∃ t : Fin cfg0.N, win0_3.index t = ![q.val, 0] ∧ win0_4.index t = ![q.val, 0] :=
  (by decide +kernel : ∀ q : Fin 10, ∃ t : Fin grid0.N, win0_3.index t = ![q.val, 0] ∧ win0_4.index t = ![q.val, 0])

/-! ## The self-term output (window 3) -/

/-- What point `t` writes back to the self-term output is block `t` of the whole product. -/
theorem flushed_self (c : Dev nD) (t : Fin cfg0.N) :
    (dat0 V c).flushed 3 t = ((cfg0.win 3).blk t).view.read (Elt Ideal) (product (V c main_arg0) (V c main_v0)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x128) zeroOffsets]
  obtain ⟨e0, e1, e2, e3, e4, e5, e6, e7, e8⟩ := blockIndices t
  funext j
  show k0_pay2 (F := Ideal) (iblk0 V c 0 t) (iblk0 V c 1 t) j = product (V c main_arg0) (V c main_v0) (((cfg0.win 3).blk t).view.emb j)
  refine selfEntry_of_block _ _ _ _ j _ (fun k => ?_) (fun k => ?_)
  · show V c main_arg0 (((cfg0.win 0).blk t).view.emb (rowAt j k)) = V c main_arg0 (rowOf (((cfg0.win 3).blk t).view.emb j) k)
    have h : ((cfg0.win 0).blk t).view.emb (rowAt j k) = rowOf (((cfg0.win 3).blk t).view.emb j) k := by
      funext a; apply Fin.ext
      match a with
      | ⟨0, _⟩ => show win0_0.index t (0 : Fin 2) * 5000 + 1 * (j 0).val = win0_3.index t (0 : Fin 2) * 5000 + 1 * (j 0).val; omega
      | ⟨1, _⟩ => show win0_0.index t (1 : Fin 2) * 128 + 1 * k.val = k.val; omega
    rw [h]
  · show V c main_v0 (((cfg0.win 1).blk t).view.emb (colAt j k)) = V c main_v0 (colOf (((cfg0.win 3).blk t).view.emb j) k)
    have h : ((cfg0.win 1).blk t).view.emb (colAt j k) = colOf (((cfg0.win 3).blk t).view.emb j) k := by
      funext a; apply Fin.ext
      match a with
      | ⟨0, _⟩ => show win0_1.index t (0 : Fin 2) * 128 + 1 * k.val = k.val; omega
      | ⟨1, _⟩ => show win0_1.index t (1 : Fin 2) * 128 + 1 * (j 1).val = win0_3.index t (1 : Fin 2) * 128 + 1 * (j 1).val; omega
    rw [h]

/-- An index of the self-term output is in point `t`'s block iff each coordinate is in the block's range. -/
theorem mem_blk_self (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2_0).slice (win0_3.rect t)).set ↔ _
  rw [View.set_slice_whole, Rect.mem_set_unit]
  exact Iff.rfl

/-- Row r lies in the block of point r / 5000. -/
theorem cover_self (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht, -⟩ := rowBlock_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk_self]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The self-term output after the region: the features times the first matrix. -/
theorem selfArray (c : Dev nD) : (dat0 V c).arrAt 3 cfg0.N = product (V c main_arg0) (V c main_v0) :=
  (dat0 V c).arrAt_eq_of_cover 3 _ (fun t _ => flushed_self V c t) cover_self

/-! ## The neighbour-transform output (window 4) -/

theorem flushed_neigh (c : Dev nD) (t : Fin cfg0.N) :
    (dat0 V c).flushed 4 t = ((cfg0.win 4).blk t).view.read (Elt Ideal) (product (V c main_arg0) (V c main_v1)) := by
  show (cfg0.win 4).cut (grid0.coords t) ((dat0 V c).after 4 t) = _
  rw [after0_4]
  unfold out0_4
  rw [View.canon_unit_zero zeroOffsets]
  simp only [View.ld_unit_zero (S := S5000x128) zeroOffsets, View.ld_unit_zero (S := S128x128) zeroOffsets]
  obtain ⟨e0, e1, e2, e3, e4, e5, e6, e7, e8⟩ := blockIndices t
  funext j
  show k0_pay3 (F := Ideal) (iblk0 V c 0 t) (iblk0 V c 2 t) j = product (V c main_arg0) (V c main_v1) (((cfg0.win 4).blk t).view.emb j)
  refine neighEntry_of_block _ _ _ _ j _ (fun k => ?_) (fun k => ?_)
  · show V c main_arg0 (((cfg0.win 0).blk t).view.emb (rowAt j k)) = V c main_arg0 (rowOf (((cfg0.win 4).blk t).view.emb j) k)
    have h : ((cfg0.win 0).blk t).view.emb (rowAt j k) = rowOf (((cfg0.win 4).blk t).view.emb j) k := by
      funext a; apply Fin.ext
      match a with
      | ⟨0, _⟩ => show win0_0.index t (0 : Fin 2) * 5000 + 1 * (j 0).val = win0_4.index t (0 : Fin 2) * 5000 + 1 * (j 0).val; omega
      | ⟨1, _⟩ => show win0_0.index t (1 : Fin 2) * 128 + 1 * k.val = k.val; omega
    rw [h]
  · show V c main_v1 (((cfg0.win 2).blk t).view.emb (colAt j k)) = V c main_v1 (colOf (((cfg0.win 4).blk t).view.emb j) k)
    have h : ((cfg0.win 2).blk t).view.emb (colAt j k) = colOf (((cfg0.win 4).blk t).view.emb j) k := by
      funext a; apply Fin.ext
      match a with
      | ⟨0, _⟩ => show win0_2.index t (0 : Fin 2) * 128 + 1 * k.val = k.val; omega
      | ⟨1, _⟩ => show win0_2.index t (1 : Fin 2) * 128 + 1 * (j 1).val = win0_4.index t (1 : Fin 2) * 128 + 1 * (j 1).val; omega
    rw [h]

theorem mem_blk_neigh (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v2_1).slice (win0_4.rect t)).set ↔ _
  rw [View.set_slice_whole, Rect.mem_set_unit]
  exact Iff.rfl

theorem cover_neigh (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, -, ht⟩ := rowBlock_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk_neigh]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The neighbour-transform output after the region: the features times the second matrix. -/
theorem neighArray (c : Dev nD) : (dat0 V c).arrAt 4 cfg0.N = product (V c main_arg0) (V c main_v1) :=
  (dat0 V c).arrAt_eq_of_cover 4 _ (fun t _ => flushed_neigh V c t) cover_neigh

end Cert.KernelIdeal.Products

end
-- ==== Proof.Region1.lean ====
/-
  The second region's output as a whole array.

  The region walks the 50000 rows in ten blocks of 5000; at block t it reads rows 5000·t … 5000·t + 4999 of the self term
  and of the aggregated neighbour term, and the one bias row, and writes the same rows of the result:
  entry (r, c) is max (h[r, c] + n[r, c] + b[0, c]) 0. The body is pointwise in (r, c), so the result is that one
  function of the three whole arrays, and the ten blocks cover every row.
-/
import proofs.«122483_j68367289418123_1_alg».proof.Proof.Gen.KernelIdeal.Frame
import proofs.«122483_j68367289418123_1_alg».proof.Proof.Payloads

set_option maxRecDepth 16384

noncomputable section

namespace Cert.KernelIdeal.Activation

open Cert.KernelIdeal Cert.KernelIdeal.Gen Cert.KernelIdeal.Body Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- The bias row's entry under the column of `i`. -/
abbrev biasOf (i : S50000x128.Idx) : S1x128.Idx := fun a => match a with
  | ⟨0, _⟩ => ⟨0, Nat.one_pos⟩
  | ⟨1, _⟩ => ⟨(i 1).val, (i 1).isLt⟩

/-- Self term plus neighbour term plus bias, clamped below at zero, entry by entry. -/
def activated (h n : S50000x128.Idx → EReal) (b : S1x128.Idx → EReal) : S50000x128.Idx → EReal :=
  fun i => max (h i + n i + b (biasOf i)) (Ideal.ofBits .f32 0x00000000#32)

/-- An entry of the body's result is the entry of `activated` it sits at, once the three loaded blocks read the arrays there. -/
theorem entry_of_block (H N : S50000x128.Idx → EReal) (B : S1x128.Idx → EReal) (b : Vec Ideal S1x128 .f32)
    (h n : Vec Ideal S5000x128 .f32) (j : S5000x128.Idx) (i : S50000x128.Idx)
    (hh : h j = H i) (hn : n j = N i) (hb : b (biasAt j) = B (biasOf i)) :
    k1_pay1 (F := Ideal) b h n j = activated H N B i := by
  rw [reluPayload_apply, hh, hn, hb]
  rfl

/-- The index maps over the ten grid points: the two row-blocked inputs and the output sit at row block t, column block 0;
    the bias row at block (0, 0). -/
theorem blockIndices : ∀ t : Fin cfg1.N, win1_0.index t (0 : Fin 2) = win1_3.index t (0 : Fin 2)
    ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every row block is some point's. -/
theorem rowBlock_onto : ∀ q : Fin 10, ∃ t : Fin cfg1.N, win1_3.index t = ![q.val, 0] :=
  (by decide +kernel : ∀ q : Fin 10, ∃ t : Fin grid1.N, win1_3.index t = ![q.val, 0])

/-- What point `t` writes back is block `t` of `activated` of the three arrays as the region finds them. -/
theorem flushed_out (c : Dev nD) (t : Fin cfg1.N) :
    (dat1 V c).flushed 3 t = ((cfg1.win 3).blk t).view.read (Elt Ideal) (activated (V c main_v2_0) (V c main_v12) (V c main_v13)) := by
  show (cfg1.win 3).cut (grid1.coords t) ((dat1 V c).after 3 t) = _
  rw [after1_3]
  unfold out1_3
  rw [View.canon_unit_zero zeroOffsets]
  simp only [View.ld_unit_zero (S := S5000x128) zeroOffsets, View.ld_unit_zero (S := S1x128) zeroOffsets]
  obtain ⟨e0, e1, e2, e3, e4, e5, e6⟩ := blockIndices t
  funext j
  show k1_pay1 (F := Ideal) (iblk1 V c 2 t) (iblk1 V c 0 t) (iblk1 V c 1 t) j
    = activated (V c main_v2_0) (V c main_v12) (V c main_v13) (((cfg1.win 3).blk t).view.emb j)
  refine entry_of_block _ _ _ _ _ _ j _ ?_ ?_ ?_
  · show V c main_v2_0 (((cfg1.win 0).blk t).view.emb j) = V c main_v2_0 (((cfg1.win 3).blk t).view.emb j)
    have h : ((cfg1.win 0).blk t).view.emb j = ((cfg1.win 3).blk t).view.emb j := by
      funext a; apply Fin.ext
      match a with
      | ⟨0, _⟩ => show win1_0.index t (0 : Fin 2) * 5000 + 1 * (j 0).val = win1_3.index t (0 : Fin 2) * 5000 + 1 * (j 0).val; omega
      | ⟨1, _⟩ => show win1_0.index t (1 : Fin 2) * 128 + 1 * (j 1).val = win1_3.index t (1 : Fin 2) * 128 + 1 * (j 1).val; omega
    rw [h]
  · show V c main_v12 (((cfg1.win 1).blk t).view.emb j) = V c main_v12 (((cfg1.win 3).blk t).view.emb j)
    have h : ((cfg1.win 1).blk t).view.emb j = ((cfg1.win 3).blk t).view.emb j := by
      funext a; apply Fin.ext
      match a with
      | ⟨0, _⟩ => show win1_1.index t (0 : Fin 2) * 5000 + 1 * (j 0).val = win1_3.index t (0 : Fin 2) * 5000 + 1 * (j 0).val; omega
      | ⟨1, _⟩ => show win1_1.index t (1 : Fin 2) * 128 + 1 * (j 1).val = win1_3.index t (1 : Fin 2) * 128 + 1 * (j 1).val; omega
    rw [h]
  · show V c main_v13 (((cfg1.win 2).blk t).view.emb (biasAt j)) = V c main_v13 (biasOf (((cfg1.win 3).blk t).view.emb j))
    have h : ((cfg1.win 2).blk t).view.emb (biasAt j) = biasOf (((cfg1.win 3).blk t).view.emb j) := by
      funext a; apply Fin.ext
      match a with
      | ⟨0, _⟩ => show win1_2.index t (0 : Fin 2) * 1 + 1 * 0 = 0; omega
      | ⟨1, _⟩ => show win1_2.index t (1 : Fin 2) * 128 + 1 * (j 1).val = win1_3.index t (1 : Fin 2) * 128 + 1 * (j 1).val; omega
    rw [h]

/-- An index of the result is in point `t`'s block iff each coordinate is in the block's range. -/
theorem mem_blk_out (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v14).slice (win1_3.rect t)).set ↔ _
  rw [View.set_slice_whole, Rect.mem_set_unit]
  exact Iff.rfl

/-- Row r lies in the block of point r / 5000. -/
theorem cover_out (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := rowBlock_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk_out]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the region. -/
theorem outArray (c : Dev nD) : (dat1 V c).arrAt 3 cfg1.N = activated (V c main_v2_0) (V c main_v12) (V c main_v13) :=
  (dat1 V c).arrAt_eq_of_cover 3 _ (fun t _ => flushed_out V c t) cover_out

end Cert.KernelIdeal.Activation

end
-- ==== Proof.Whole.lean ====
/-
  The kernel program's result as one function of its six arguments.

  Between the two regions the program transposes nothing more and computes, on the host, the neighbour aggregation:
  negative source ids are wrapped by adding the number of nodes, the rows of the neighbour-transform output are gathered
  at those ids, and each gathered row is added into the row its destination id names, starting from zeros
  (`aggregate`). Both regions' outputs are whole-array functions of what they find at entry, so the contents at each
  boundary of the program compose: the result buffer ends holding
    max (X·Wsᵀ + aggregate (X·Wnᵀ) src dst + bias) 0
  entry by entry (`value`). The gather and the scatter-add are never opened: they are carried as one function of the
  neighbour-transform array and the two id arrays.
-/
import proofs.«122483_j68367289418123_1_alg».proof.Proof.Gen.KernelIdeal.Frame
import proofs.«122483_j68367289418123_1_alg».proof.Proof.KernelRun
import proofs.«122483_j68367289418123_1_alg».proof.Proof.Region0
import proofs.«122483_j68367289418123_1_alg».proof.Proof.Region1
import Idealize.ShloMosaic.Lib.StableHlo.Run

set_option maxRecDepth 16384

noncomputable section

namespace Cert.KernelIdeal.Whole

open Cert.KernelIdeal Cert.KernelIdeal.Gen Cert.KernelIdeal.Products Cert.KernelIdeal.Activation
open Idealize.ShloMosaic Idealize.ShloMosaic.TcCoe Idealize.SL.Sem Idealize.ShloMosaic.StableHlo

variable (m : (ℓ : Loc nD τ sig) → Buf (Elt Ideal) ℓ) (ρ : Dev nD → PrngReg)

/-- The neighbour aggregation of a transformed feature array along the edge list: wrap negative source ids, gather the rows
    at the source ids, add each into the row of its destination id, from zeros. -/
def aggregate (xw : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 xw
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The program's result as one function of its arguments. -/
def value (X : (⟨S50000x128, .f32⟩ : BufTy).Contents (Elt Ideal)) (src dst : (⟨S800000, .i32⟩ : BufTy).Contents (Elt Ideal))
    (Ws Wn : (⟨S128x128, .f32⟩ : BufTy).Contents (Elt Ideal)) (b : (⟨S128, .f32⟩ : BufTy).Contents (Elt Ideal)) :
    (⟨S50000x128, .f32⟩ : BufTy).Contents (Elt Ideal) :=
  activated (product X (transpose S128x128 [1, 0] Ws transposes_S128x128_S128x128_1_0))
    (aggregate (product X (transpose S128x128 [1, 0] Wn transposes_S128x128_S128x128_1_0)) src dst)
    (shapeCast S1x128 b shapeCasts_S128_S1x128)

/-! ## What the first region finds: the features as launched, the two weight matrices transposed -/

theorem entry0_features (c : Dev nD) : V1 m ρ c main_arg0 = (m ((c : Thread nD τ).loc main_arg0)) := by
  show StableHlo.after hostOps0 (W0 m ρ c) (Proc.devRef .tc main_arg0) = _
  after_results
theorem entry0_selfWeights (c : Dev nD) : V1 m ρ c main_v0 = (transpose S128x128 [1, 0] (m ((c : Thread nD τ).loc main_arg3)) transposes_S128x128_S128x128_1_0) := by
  show StableHlo.after hostOps0 (W0 m ρ c) (Proc.devRef .tc main_v0) = _
  after_results
theorem entry0_neighWeights (c : Dev nD) : V1 m ρ c main_v1 = (transpose S128x128 [1, 0] (m ((c : Thread nD τ).loc main_arg4)) transposes_S128x128_S128x128_1_0) := by
  show StableHlo.after hostOps0 (W0 m ρ c) (Proc.devRef .tc main_v1) = _
  after_results

/-! ## What the first region leaves -/

theorem exit0_src (c : Dev nD) : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    after_results)
theorem exit0_dst (c : Dev nD) : W2 m ρ c (Proc.devRef .tc main_arg2) = (m ((c : Thread nD τ).loc main_arg2)) :=
  (W2_of_ne m ρ c main_arg2 (by decide)).trans (by
    show StableHlo.after hostOps0 (W0 m ρ c) (Proc.devRef .tc main_arg2) = _
    after_results)
theorem exit0_bias (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results)
theorem exit0_self (c : Dev nD) : W2 m ρ c (Proc.devRef .tc main_v2_0) = product (m ((c : Thread nD τ).loc main_arg0)) (transpose S128x128 [1, 0] (m ((c : Thread nD τ).loc main_arg3)) transposes_S128x128_S128x128_1_0) := by
  refine ((W2_arr m ρ c 3).trans (selfArray (V1 m ρ) c)).trans ?_
  rw [entry0_features, entry0_selfWeights]
theorem exit0_neigh (c : Dev nD) : W2 m ρ c (Proc.devRef .tc main_v2_1) = product (m ((c : Thread nD τ).loc main_arg0)) (transpose S128x128 [1, 0] (m ((c : Thread nD τ).loc main_arg4)) transposes_S128x128_S128x128_1_0) := by
  refine ((W2_arr m ρ c 4).trans (neighArray (V1 m ρ) c)).trans ?_
  rw [entry0_features, entry0_neighWeights]

/-! ## What the second region finds -/

theorem entry1_self (c : Dev nD) : V3 m ρ c main_v2_0 = product (m ((c : Thread nD τ).loc main_arg0)) (transpose S128x128 [1, 0] (m ((c : Thread nD τ).loc main_arg3)) transposes_S128x128_S128x128_1_0) := by
  show StableHlo.after hostOps1 (W2 m ρ c) (Proc.devRef .tc main_v2_0) = _
  after_results
  exact exit0_self m ρ c
theorem entry1_neigh (c : Dev nD) : V3 m ρ c main_v12 = aggregate (product (m ((c : Thread nD τ).loc main_arg0)) (transpose S128x128 [1, 0] (m ((c : Thread nD τ).loc main_arg4)) transposes_S128x128_S128x128_1_0)) (m ((c : Thread nD τ).loc main_arg1)) (m ((c : Thread nD τ).loc main_arg2)) := by
  show StableHlo.after hostOps1 (W2 m ρ c) (Proc.devRef .tc main_v12) = _
  after_results
  rw [exit0_src, exit0_dst, exit0_neigh]
  rfl
theorem entry1_bias (c : Dev nD) : V3 m ρ c main_v13 = shapeCast S1x128 (m ((c : Thread nD τ).loc main_arg5)) shapeCasts_S128_S1x128 := by
  show StableHlo.after hostOps1 (W2 m ρ c) (Proc.devRef .tc main_v13) = _
  after_results
  rw [exit0_bias]
  rfl

/-! ## The result -/

theorem result_eq (c : Dev nD) : W4 m ρ c (Proc.devRef .tc main_v14) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine ((W4_arr m ρ c 3).trans (outArray (V3 m ρ) c)).trans ?_
  rw [entry1_self, entry1_neigh, entry1_bias]
  rfl

/-- Every weakly fair execution of the kernel program terminates with the result buffer at `value` of the arguments and
    the arguments as launched. -/
theorem run : θ_run defs (onTc (τ := τ) (main (F := Ideal))) ⟨m, fun _ => 0, ρ⟩ (fun r => ∀ c : Dev nD,
      r.2.mem ((c.tc : Thread nD τ).loc main_v14) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Cert.KernelIdeal.Whole

end
-- ==== Proof.Bridge.lean ====
/-
  The reference computes the kernel program's function.

  Entry by entry the reference's result is max (s + a + bias[c]) 0 with s an entry of X·Wsᵀ, a the same entry of the
  neighbour aggregation of X·Wnᵀ, and bias[c] the bias under the entry's column. Its two matrix products are the host's
  contraction, which over the extended reals is the sum over the 128 contracted positions: the same sum as the kernel's
  row-blocked products (no law beyond reading both at an index is needed: the terms and their order agree). Its gather and
  scatter-add are the kernel program's own host operations, applied to the same array, so they are compared as one
  function and never opened. The reference reaches the bias through two broadcasts, the kernel through a reshape to one
  row: both read bias[c].
-/
import proofs.«122483_j68367289418123_1_alg».proof.Proof.Gen.ReferenceIdeal.Run
import proofs.«122483_j68367289418123_1_alg».proof.Proof.Gen.ReferenceIdeal.Read
import proofs.«122483_j68367289418123_1_alg».proof.Proof.Whole

noncomputable section

namespace Cert.Bridge

open Idealize.ShloMosaic Idealize.ShloMosaic.TcCoe Idealize.SL.Sem
open Cert.ReferenceIdeal.Read Cert.KernelIdeal.Products Cert.KernelIdeal.Activation Cert.KernelIdeal.Whole

/-! ## The index functions of the reference's stages are the kernel side's -/

theorem lidx_self (i : Cert.ReferenceIdeal.S50000x128.Idx) (k : Fin 128) : lidx_main_v1 i k = rowOf i k :=
  funext fun a => Fin.ext (by match a with | ⟨0, _⟩ => rfl | ⟨1, _⟩ => rfl)
theorem ridx_self (i : Cert.ReferenceIdeal.S50000x128.Idx) (k : Fin 128) : ridx_main_v1 i k = colOf i k :=
  funext fun a => Fin.ext (by match a with | ⟨0, _⟩ => rfl | ⟨1, _⟩ => rfl)
theorem lidx_neigh (i : Cert.ReferenceIdeal.S50000x128.Idx) (k : Fin 128) : lidx_main_v3 i k = rowOf i k :=
  funext fun a => Fin.ext (by match a with | ⟨0, _⟩ => rfl | ⟨1, _⟩ => rfl)
theorem ridx_neigh (i : Cert.ReferenceIdeal.S50000x128.Idx) (k : Fin 128) : ridx_main_v3 i k = colOf i k :=
  funext fun a => Fin.ext (by match a with | ⟨0, _⟩ => rfl | ⟨1, _⟩ => rfl)

/-! ## The two matrix products -/

theorem selfProduct_eq (x0 : (⟨Cert.ReferenceIdeal.S50000x128, .f32⟩ : BufTy).Contents (Elt Ideal)) (x3 : (⟨Cert.ReferenceIdeal.S128x128, .f32⟩ : BufTy).Contents (Elt Ideal)) :
    val_main_v1 (F := Ideal) x0 x3 = product x0 (transpose Cert.KernelIdeal.S128x128 [1, 0] x3 Cert.KernelIdeal.Gen.transposes_S128x128_S128x128_1_0) := by
  funext i
  rw [val_main_v1_apply]
  unfold product
  refine Finset.sum_congr rfl fun k _ => ?_
  rw [lidx_self, ridx_self]
  rfl

theorem neighProduct_eq (x0 : (⟨Cert.ReferenceIdeal.S50000x128, .f32⟩ : BufTy).Contents (Elt Ideal)) (x4 : (⟨Cert.ReferenceIdeal.S128x128, .f32⟩ : BufTy).Contents (Elt Ideal)) :
    val_main_v3 (F := Ideal) x0 x4 = product x0 (transpose Cert.KernelIdeal.S128x128 [1, 0] x4 Cert.KernelIdeal.Gen.transposes_S128x128_S128x128_1_0) := by
  funext i
  rw [val_main_v3_apply]
  unfold product
  refine Finset.sum_congr rfl fun k _ => ?_
  rw [lidx_neigh, ridx_neigh]
  rfl

/-! ## The aggregation: the same host operations on the same array -/

theorem aggregate_eq (x0 : (⟨Cert.ReferenceIdeal.S50000x128, .f32⟩ : BufTy).Contents (Elt Ideal)) (x1 x2 : (⟨Cert.ReferenceIdeal.S800000, .i32⟩ : BufTy).Contents (Elt Ideal))
    (x4 : (⟨Cert.ReferenceIdeal.S128x128, .f32⟩ : BufTy).Contents (Elt Ideal)) :
    val_main_v13 (F := Ideal) x0 x1 x2 x4
      = aggregate (product x0 (transpose Cert.KernelIdeal.S128x128 [1, 0] x4 Cert.KernelIdeal.Gen.transposes_S128x128_S128x128_1_0)) x1 x2 := by
  unfold val_main_v13 val_main_v10
  rw [neighProduct_eq]
  rfl

/-! ## The bias under a column -/

theorem bias_read (x5 : (⟨Cert.ReferenceIdeal.S128, .f32⟩ : BufTy).Contents (Elt Ideal)) (i : Cert.ReferenceIdeal.S50000x128.Idx) :
    shapeCast Cert.KernelIdeal.S1x128 x5 Cert.KernelIdeal.Gen.shapeCasts_S128_S1x128 (biasOf i) = x5 (idx_main_v15 (idx_main_v16 i)) :=
  (shapeCast_addUnit_apply (n := 1) ![128] x5 Cert.KernelIdeal.Gen.shapeCasts_S128_S1x128 (biasOf i)).trans
    (congrArg x5 (funext fun a => Fin.ext (by match a with | ⟨0, _⟩ => rfl)))

/-! ## The whole result -/

theorem reference_eq (x0 : (⟨Cert.ReferenceIdeal.S50000x128, .f32⟩ : BufTy).Contents (Elt Ideal)) (x1 x2 : (⟨Cert.ReferenceIdeal.S800000, .i32⟩ : BufTy).Contents (Elt Ideal))
    (x3 x4 : (⟨Cert.ReferenceIdeal.S128x128, .f32⟩ : BufTy).Contents (Elt Ideal)) (x5 : (⟨Cert.ReferenceIdeal.S128, .f32⟩ : BufTy).Contents (Elt Ideal)) :
    val_main_v18 (F := Ideal) x0 x1 x2 x3 x4 x5 = value x0 x1 x2 x3 x4 x5 := by
  funext i
  rw [val_main_v18_apply, val_main_v17_apply, val_main_v14_apply, val_main_v16_apply, val_main_v15_apply,
    val_main_call0_v0_apply, val_main_call0_cst_apply, selfProduct_eq, aggregate_eq]
  unfold value activated
  rw [bias_read]
  rfl

end Cert.Bridge

end
-- ==== Proof.lean ====
/-
  The kernel program — two row-blocked matrix products X·Wsᵀ and X·Wnᵀ in one region, the neighbour aggregation
  (gather the rows of X·Wnᵀ at the source ids, add them into the rows of the destination ids) on the host, then
  add, add the bias and clamp at zero in a second region — against the reference, which computes
  relu (X·Wsᵀ + aggregate (X·Wnᵀ) + bias) with whole-array host operations.

  Over the extended reals both are one function of the six arguments (`Whole.value`): a block of a matrix product is
  the block of the whole product, a contraction is the sum over its 128 positions on either side, narrowing to a
  shorter float format is the identity, the aggregation is the same operations on the same array, and the last region
  is pointwise. No law that needs finiteness is used, so the precondition is never opened.
  The idealization rewrote nothing, so the kernel's idealized form is the kernel's own text and that conjunct is trivial.
-/
import proofs.«122483_j68367289418123_1_alg».proof.Defs
import proofs.«122483_j68367289418123_1_alg».proof.Proof.Gen.Kernel
import proofs.«122483_j68367289418123_1_alg».proof.Proof.Gen.Kernel.Frame
import proofs.«122483_j68367289418123_1_alg».proof.Proof.Gen.KernelIdeal
import proofs.«122483_j68367289418123_1_alg».proof.Proof.Gen.KernelIdeal.Frame
import proofs.«122483_j68367289418123_1_alg».proof.Proof.Gen.ReferenceIdeal
import proofs.«122483_j68367289418123_1_alg».proof.Proof.Gen.ReferenceIdeal.Run
import proofs.«122483_j68367289418123_1_alg».proof.Proof.Gen.ReferenceIdeal.Read
import proofs.«122483_j68367289418123_1_alg».proof.Proof.Gen.Pre_finite_inputs
import proofs.«122483_j68367289418123_1_alg».proof.Proof.Whole
import proofs.«122483_j68367289418123_1_alg».proof.Proof.Bridge

noncomputable section

namespace Cert.Proof

open Idealize.ShloMosaic Idealize.ShloMosaic.TcCoe Idealize.SL.Sem

/-- The kernel program runs and keeps its arguments, at the word level. -/
theorem frame_kernel : Cert.frame_Kernel := fun m ρ _ => Cert.Kernel.Gen.frame m ρ
/-- The same over the extended reals. -/
theorem frame_kernelIdeal : Cert.frame_KernelIdeal := fun m ρ _ => Cert.KernelIdeal.Gen.frame m ρ
/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result at `Whole.value` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v18_eq, Cert.Bridge.reference_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
